-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096x1024 .f32) (main_arg5 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S1024x4096, .f32⟩
  | .hbm, ⟨7, _⟩ => ⟨S1024x4096, .bf16⟩
  | .hbm, ⟨8, _⟩ => ⟨S1024x4096, .f32⟩
  | .hbm, ⟨9, _⟩ => ⟨S1024x4096, .bf16⟩
  | .hbm, ⟨10, _⟩ => ⟨S1x4096, .f32⟩
  | .hbm, ⟨11, _⟩ => ⟨S8192x1024, .f32⟩
  | .hbm, ⟨12, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S1024x4096, .f32⟩
  | .hbm, ⟨7, _⟩ => ⟨S8192x4096, .f32⟩
  | .hbm, ⟨8, _⟩ => ⟨S1024x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LstmCell.lean ====
/-
  One step of an LSTM cell, entry by entry, as a function of its six argument arrays over the extended reals.

  The arguments are the input `X`, the hidden state `Hh` and the cell state `Cc` (each 8192 rows of 1024 entries),
  the two weight matrices `Wi`, `Wh` (4096 rows of 1024 entries: four stacked blocks of 1024 rows, one per gate, in the
  order input, forget, candidate, output) and the bias `Bb` (4096 entries, stacked the same way).

  Row `r` of the stacked pre-activations at stacked column `n` is

      gate n r = (Σ_q X[r,q] · Wi[n,q]  +  Σ_q Hh[r,q] · Wh[n,q])  +  Bb[n],

  and with σ the logistic function, for `j < 1024`,

      cell[r,j]   = σ(gate (1024 + j) r) · Cc[r,j]  +  σ(gate j r) · tanh(gate (2048 + j) r),
      hidden[r,j] = σ(gate (3072 + j) r) · tanh(cell[r,j]).

  Nothing here needs a finite entry: the two programs compared against this function perform the same sums, products
  and function applications in the same grouping, so no law beyond the definitions is used.
-/
import Idealize.ShloMosaic.PureOps.Ideal
import Idealize.ShloMosaic.Lib.ValueIdx

noncomputable section

namespace Cert.LstmCell

open Idealize.ShloMosaic Idealize.ShloMosaic.ValueIdx

/-- An array of 8192 rows of 1024 extended reals: the input, the two states, and the two results. -/
abbrev Rows : Type := (⟨2, ![8192, 1024]⟩ : Shape).Idx → EReal
/-- A stacked weight matrix: 4096 rows (four gates of 1024) of 1024 entries. -/
abbrev Wts : Type := (⟨2, ![4096, 1024]⟩ : Shape).Idx → EReal
/-- The stacked bias. -/
abbrev Bias : Type := (⟨1, ![4096]⟩ : Shape).Idx → EReal

/-- Column `j` of the gate whose block of stacked columns starts at `o`. -/
abbrev gcol (o : Nat) (ho : o + 1024 ≤ 4096) (j : Fin 1024) : Fin 4096 := ⟨o + j.val, by omega⟩

/-- The stacked pre-activation of row `r` at stacked column `n`. -/
def gate (X Hh : Rows) (Wi Wh : Wts) (Bb : Bias) (n : Fin 4096) (r : Fin 8192) : EReal :=
  ((∑ q : Fin 1024, X (ix2 r q) * Wi (ix2 n q)) + (∑ q : Fin 1024, Hh (ix2 r q) * Wh (ix2 n q))) + Bb (ix1 n)

/-- The new cell state at row `r`, column `j`: forget gate times the old state plus input gate times candidate. -/
def cellAt (X Hh Cc : Rows) (Wi Wh : Wts) (Bb : Bias) (r : Fin 8192) (j : Fin 1024) : EReal :=
  Ideal.logistic (gate X Hh Wi Wh Bb (gcol 1024 (by decide) j) r) * Cc (ix2 r j)
    + Ideal.logistic (gate X Hh Wi Wh Bb (gcol 0 (by decide) j) r) * Ideal.tanh (gate X Hh Wi Wh Bb (gcol 2048 (by decide) j) r)

/-- The new hidden state at row `r`, column `j`: output gate times the squashed new cell state. -/
def hiddenAt (X Hh Cc : Rows) (Wi Wh : Wts) (Bb : Bias) (r : Fin 8192) (j : Fin 1024) : EReal :=
  Ideal.logistic (gate X Hh Wi Wh Bb (gcol 3072 (by decide) j) r) * Ideal.tanh (cellAt X Hh Cc Wi Wh Bb r j)

/-- The new cell state as an array. -/
def cell (X Hh Cc : Rows) (Wi Wh : Wts) (Bb : Bias) : Rows := fun i => cellAt X Hh Cc Wi Wh Bb (i 0) (i 1)

/-- The new hidden state as an array. -/
def hidden (X Hh Cc : Rows) (Wi Wh : Wts) (Bb : Bias) : Rows := fun i => hiddenAt X Hh Cc Wi Wh Bb (i 0) (i 1)

/-- The single-precision word `0x3F800000` denotes the number one. -/
theorem ofBits_one : Ideal.ofBits .f32 0x3F800000#32 = 1 := by
  simp [Ideal.ofBits, Ideal.ieee, -EReal.coe_mul]; norm_num

/-- The logistic function spelt with the host's quotient, the literal one, the exponential and the negation. -/
theorem logistic_spelt (x : EReal) :
    Ideal.div (Ideal.ofBits .f32 0x3F800000#32) (Ideal.ofBits .f32 0x3F800000#32 + Ideal.exp (-x)) = Ideal.logistic x := by
  rw [ofBits_one]; rfl

end Cert.LstmCell

end
-- ==== Proof.RefCell.lean ====
/-
  The reference program computes the LSTM cell function.

  The reference forms the whole 8192 × 4096 array of stacked pre-activations — two matrix products against the
  transposed weights, added, plus the bias broadcast over the rows — cuts it into its four blocks of 1024 columns, and
  applies the gate functions entry by entry. Read at row `r` and stacked column `n` the pre-activation is `gate n r`:
  the product's entry is the sum over the contracted index `q` of `X[r,q]` times the transposed weight at `(q, n)`, which
  is the weight at `(n, q)`. The cut at offset `o` reads column `o + j`. The host spells the logistic function as
  `1 / (1 + exp (-x))` with the literal one; on the extended reals that is the logistic function itself.
-/
import proofs.«429848_j73272142069831_3_alg».proof.Proof.Gen.ReferenceIdeal.Read
import proofs.«429848_j73272142069831_3_alg».proof.Proof.LstmCell

noncomputable section

namespace Cert.ReferenceIdeal.RefCell

open Cert.ReferenceIdeal Cert.ReferenceIdeal.Read Cert.LstmCell
open Idealize.ShloMosaic Idealize.ShloMosaic.ValueIdx

variable (x0 x1 x2 : (⟨S8192x1024, .f32⟩ : BufTy).Contents (Elt Ideal))
variable (x3 x4 : (⟨S4096x1024, .f32⟩ : BufTy).Contents (Elt Ideal)) (x5 : (⟨S4096, .f32⟩ : BufTy).Contents (Elt Ideal))

/-- The left operand of either product at output index `(r, n)` and contracted index `q` is read at `(r, q)`. -/
theorem lidx_v1 (r : Fin 8192) (n : Fin 4096) (q : Fin 1024) : lidx_main_v1 (ix2 r n) q = ix2 r q :=
  funext fun a => by match a with | ⟨0, _⟩ => rfl | ⟨1, _⟩ => rfl
theorem lidx_v3 (r : Fin 8192) (n : Fin 4096) (q : Fin 1024) : lidx_main_v3 (ix2 r n) q = ix2 r q :=
  funext fun a => by match a with | ⟨0, _⟩ => rfl | ⟨1, _⟩ => rfl
/-- The transposed weight at `(q, n)` is the weight at `(n, q)`. -/
theorem ridx_v1 (r : Fin 8192) (n : Fin 4096) (q : Fin 1024) : idx_main_v0 (ridx_main_v1 (ix2 r n) q) = ix2 n q :=
  funext fun a => by match a with | ⟨0, _⟩ => rfl | ⟨1, _⟩ => rfl
theorem ridx_v3 (r : Fin 8192) (n : Fin 4096) (q : Fin 1024) : idx_main_v2 (ridx_main_v3 (ix2 r n) q) = ix2 n q :=
  funext fun a => by match a with | ⟨0, _⟩ => rfl | ⟨1, _⟩ => rfl
/-- The bias broadcast over the rows reads entry `n`. -/
theorem bidx (r : Fin 8192) (n : Fin 4096) : idx_main_v5 (idx_main_v6 (ix2 r n)) = ix1 n :=
  funext fun a => by match a with | ⟨0, _⟩ => rfl

/-- THE STACKED PRE-ACTIVATIONS: the reference's 8192 × 4096 array at `(r, n)` is `gate n r`. -/
theorem preact (r : Fin 8192) (n : Fin 4096) :
    val_main_v7 (F := Ideal) x0 x1 x3 x4 x5 (ix2 r n) = gate x0 x1 x3 x4 x5 n r := by
  rw [val_main_v7_apply, val_main_v4_apply, val_main_v1_apply, val_main_v3_apply, val_main_v6_apply, val_main_v5_apply]
  simp only [val_main_v0_apply, val_main_v2_apply, lidx_v1, lidx_v3, ridx_v1, ridx_v3, bidx]
  rfl

/-- The four cuts: column `j` of the cut at offset `o` is stacked column `o + j`. -/
theorem cut0 (r : Fin 8192) (j : Fin 1024) : idx_main_v8 (ix2 r j) = ix2 r (gcol 0 (by decide) j) :=
  funext fun a => by
    match a with
    | ⟨0, _⟩ => rfl
    | ⟨1, _⟩ => exact Fin.ext (Nat.zero_add _).symm
theorem cut1 (r : Fin 8192) (j : Fin 1024) : idx_main_v9 (ix2 r j) = ix2 r (gcol 1024 (by decide) j) :=
  funext fun a => by match a with | ⟨0, _⟩ => rfl | ⟨1, _⟩ => rfl
theorem cut2 (r : Fin 8192) (j : Fin 1024) : idx_main_v10 (ix2 r j) = ix2 r (gcol 2048 (by decide) j) :=
  funext fun a => by match a with | ⟨0, _⟩ => rfl | ⟨1, _⟩ => rfl
theorem cut3 (r : Fin 8192) (j : Fin 1024) : idx_main_v11 (ix2 r j) = ix2 r (gcol 3072 (by decide) j) :=
  funext fun a => by match a with | ⟨0, _⟩ => rfl | ⟨1, _⟩ => rfl

/-- The literal one broadcast over the array, at any index. -/
theorem one14 (i : S8192x1024.Idx) : val_main_v14 (F := Ideal) i = Ideal.ofBits .f32 0x3F800000#32 := by
  rw [val_main_v14_apply]; rfl
theorem one16 (i : S8192x1024.Idx) : val_main_v16 (F := Ideal) i = Ideal.ofBits .f32 0x3F800000#32 := by
  rw [val_main_v16_apply]; rfl
theorem one20 (i : S8192x1024.Idx) : val_main_v20 (F := Ideal) i = Ideal.ofBits .f32 0x3F800000#32 := by
  rw [val_main_v20_apply]; rfl
theorem one22 (i : S8192x1024.Idx) : val_main_v22 (F := Ideal) i = Ideal.ofBits .f32 0x3F800000#32 := by
  rw [val_main_v22_apply]; rfl
theorem one27 (i : S8192x1024.Idx) : val_main_v27 (F := Ideal) i = Ideal.ofBits .f32 0x3F800000#32 := by
  rw [val_main_v27_apply]; rfl
theorem one29 (i : S8192x1024.Idx) : val_main_v29 (F := Ideal) i = Ideal.ofBits .f32 0x3F800000#32 := by
  rw [val_main_v29_apply]; rfl

/-- The input gate: the logistic function of the first block of pre-activations. -/
theorem inGate (r : Fin 8192) (j : Fin 1024) :
    val_main_v17 (F := Ideal) x0 x1 x3 x4 x5 (ix2 r j) = Ideal.logistic (gate x0 x1 x3 x4 x5 (gcol 0 (by decide) j) r) := by
  rw [val_main_v17_apply, val_main_v15_apply, val_main_v13_apply, val_main_v12_apply, val_main_v8_apply, one14, one16, cut0, preact]
  exact logistic_spelt _

/-- The forget gate: the logistic function of the second block. -/
theorem forgetGate (r : Fin 8192) (j : Fin 1024) :
    val_main_v23 (F := Ideal) x0 x1 x3 x4 x5 (ix2 r j) = Ideal.logistic (gate x0 x1 x3 x4 x5 (gcol 1024 (by decide) j) r) := by
  rw [val_main_v23_apply, val_main_v21_apply, val_main_v19_apply, val_main_v18_apply, val_main_v9_apply, one20, one22, cut1, preact]
  exact logistic_spelt _

/-- The candidate: the hyperbolic tangent of the third block. -/
theorem candidate (r : Fin 8192) (j : Fin 1024) :
    val_main_v24 (F := Ideal) x0 x1 x3 x4 x5 (ix2 r j) = Ideal.tanh (gate x0 x1 x3 x4 x5 (gcol 2048 (by decide) j) r) := by
  rw [val_main_v24_apply, val_main_v10_apply, cut2, preact]
  rfl

/-- The output gate: the logistic function of the fourth block. -/
theorem outGate (r : Fin 8192) (j : Fin 1024) :
    val_main_v30 (F := Ideal) x0 x1 x3 x4 x5 (ix2 r j) = Ideal.logistic (gate x0 x1 x3 x4 x5 (gcol 3072 (by decide) j) r) := by
  rw [val_main_v30_apply, val_main_v28_apply, val_main_v26_apply, val_main_v25_apply, val_main_v11_apply, one27, one29, cut3, preact]
  exact logistic_spelt _

/-- THE REFERENCE'S SECOND RESULT is the new cell state. -/
theorem cell_eq : val_main_v33 (F := Ideal) x0 x1 x2 x3 x4 x5 = cell x0 x1 x2 x3 x4 x5 := by
  funext i
  obtain ⟨r, j, rfl⟩ : ∃ (r : Fin 8192) (j : Fin 1024), i = ix2 r j := ⟨i 0, i 1, eq_ix2 i⟩
  rw [val_main_v33_apply, val_main_v31_apply, val_main_v32_apply, forgetGate, inGate, candidate]
  rfl

/-- THE REFERENCE'S FIRST RESULT is the new hidden state. -/
theorem hidden_eq : val_main_v35 (F := Ideal) x0 x1 x2 x3 x4 x5 = hidden x0 x1 x2 x3 x4 x5 := by
  funext i
  obtain ⟨r, j, rfl⟩ : ∃ (r : Fin 8192) (j : Fin 1024), i = ix2 r j := ⟨i 0, i 1, eq_ix2 i⟩
  rw [val_main_v35_apply, val_main_v34_apply, outGate, congrFun (cell_eq x0 x1 x2 x3 x4 x5) (ix2 r j)]
  rfl

end Cert.ReferenceIdeal.RefCell

end
-- ==== Proof.KernelCell.lean ====
/-
  What the kernel body leaves in its two result blocks, entry by entry.

  At a grid point the body holds a block of 256 rows of the input, of the hidden state and of the cell state, the two
  whole weight matrices TRANSPOSED (1024 × 4096: column `n` is stacked gate column `n`) and the bias as one row of 4096.
  For each of the four gates it cuts the 1024 columns of the gate out of both weight matrices and out of the bias row,
  multiplies the two row blocks with the two cuts on the matrix unit into a zero accumulator, adds the two products,
  adds the bias row broadcast over the 256 rows, and applies the gate's function. The narrowing of the row blocks to
  half precision before the products is the identity on the extended reals, and a product into the zero accumulator
  is the plain sum over the contracted index. So entry `(p, j)` of gate `o` is the function of

      (Σ_q x[p,q] · Wiᵀ[q, o+j]  +  Σ_q h[p,q] · Whᵀ[q, o+j])  +  b[0, o+j],

  which, when the blocks are read off the argument arrays, is `gate (o + j) (R p)` for the array row `R p` of block
  row `p`. The two stores then hold the new cell state and the new hidden state at `(R p, j)`.
-/
import proofs.«429848_j73272142069831_3_alg».proof.Proof.Gen.KernelIdeal.Frame
import proofs.«429848_j73272142069831_3_alg».proof.Proof.LstmCell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellBlock

open Cert.KernelIdeal Cert.KernelIdeal.Gen Cert.LstmCell
open Idealize.ShloMosaic Idealize.ShloMosaic.ValueIdx

/-! ## The matrix unit's product at an entry -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 block times a 1024 × 1024 block into the zero accumulator, at entry `(p, j)`: the sum over the
    contracted index `q` of the left block at `(p, q)` times the right block at `(q, j)`. -/
theorem mm_apply {φ₁ φ₂ : FTy} (l : FVec Ideal S256x1024 φ₁) (w : FVec Ideal S1024x1024 φ₂) (p : Fin 256) (j : Fin 1024) :
    matmul dot_S256x1024_S1024x1024_S256x1024_1_0_0_1_n_n none l w (constant S256x1024 .f32 0x00000000#32) (ix2 p j)
      = ∑ q : Fin 1024, l (ix2 p q) * w (ix2 q j) := by
  show FloatOps.matmul dot_S256x1024_S1024x1024_S256x1024_1_0_0_1_n_n none l w (constant S256x1024 .f32 0x00000000#32) (ix2 p j) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p j) ((ValueIdx.contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p j) ((ValueIdx.contrEquiv1 dot_S256x1024_S1024x1024_S256x1024_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-! ## One gate's pre-activation at an entry -/

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

/-- The two products added, plus the bias row over the rows, at entry `(p, j)`. -/
theorem preact_at (l1 l2 : FVec Ideal S256x1024 .bf16) (w1 w2 : FVec Ideal S1024x1024 .bf16) (bb : FVec Ideal S1x1024 .f32)
    (p : Fin 256) (j : Fin 1024) :
    addf (addf (matmul dot_S256x1024_S1024x1024_S256x1024_1_0_0_1_n_n none l1 w1 (constant S256x1024 .f32 0x00000000#32))
        (matmul dot_S256x1024_S1024x1024_S256x1024_1_0_0_1_n_n none l2 w2 (constant S256x1024 .f32 0x00000000#32)))
      (broadcastTo S256x1024 bb broadcasts_S1x1024_S256x1024) (ix2 p j)
      = ((∑ q : Fin 1024, l1 (ix2 p q) * w1 (ix2 q j)) + (∑ q : Fin 1024, l2 (ix2 p q) * w2 (ix2 q j))) + bb (ix2 (0 : Fin 1) j) := by
  rw [addf_apply, addf_apply, mm_apply, mm_apply, broadcastTo_1b_ab_apply]

/-! ## The body's values at an entry -/

/-- The narrowing of a row block to half precision is the identity on the extended reals. -/
theorem narrow_x (v0 : Vec Ideal S256x1024 .f32) (i : S256x1024.Idx) : k0_pay3 v0 i = v0 i := rfl
theorem narrow_h (v2 : Vec Ideal S256x1024 .f32) (i : S256x1024.Idx) : k0_pay4 v2 i = v2 i := rfl
/-- A cut of a weight matrix re-cast to its own shape is the cut. -/
theorem recast_wi (v30 : Vec Ideal S1024x1024 .bf16) : k0_pay7 v30 = v30 := shapeCast_self _ _
theorem recast_wh (v32 : Vec Ideal S1024x1024 .bf16) : k0_pay8 v32 = v32 := shapeCast_self _ _

section Entry

variable (X Hh Cc : Rows) (Wi Wh : Wts) (Bb : Bias) (r : Fin 8192) (p : Fin 256) (j : Fin 1024)

/-- ONE GATE'S PRE-ACTIVATION: when row `p` of the two row blocks is row `r` of the input and of the hidden state, column
    `j` of the two weight cuts is row `n` of the two weight matrices and entry `j` of the bias cut is entry `n` of the bias,
    the two products added plus the broadcast bias, at `(p, j)`, is `gate n r`. -/
theorem gate_of_reads (l1 l2 : FVec Ideal S256x1024 .bf16) (w1 w2 : FVec Ideal S1024x1024 .bf16) (bb : FVec Ideal S1x1024 .f32)
    (n : Fin 4096)
    (hx : ∀ q : Fin 1024, l1 (ix2 p q) = X (ix2 r q)) (hh : ∀ q : Fin 1024, l2 (ix2 p q) = Hh (ix2 r q))
    (hwi : ∀ q : Fin 1024, w1 (ix2 q j) = Wi (ix2 n q)) (hwh : ∀ q : Fin 1024, w2 (ix2 q j) = Wh (ix2 n q))
    (hb : bb (ix2 (0 : Fin 1) j) = Bb (ix1 n)) :
    addf (addf (matmul dot_S256x1024_S1024x1024_S256x1024_1_0_0_1_n_n none l1 w1 (constant S256x1024 .f32 0x00000000#32))
        (matmul dot_S256x1024_S1024x1024_S256x1024_1_0_0_1_n_n none l2 w2 (constant S256x1024 .f32 0x00000000#32)))
      (broadcastTo S256x1024 bb broadcasts_S1x1024_S256x1024) (ix2 p j)
      = gate X Hh Wi Wh Bb n r := by
  have ex : (∑ q : Fin 1024, l1 (ix2 p q) * w1 (ix2 q j)) = ∑ q : Fin 1024, X (ix2 r q) * Wi (ix2 n q) :=
    Finset.sum_congr rfl fun q _ => by rw [hx q, hwi q]
  have eh : (∑ q : Fin 1024, l2 (ix2 p q) * w2 (ix2 q j)) = ∑ q : Fin 1024, Hh (ix2 r q) * Wh (ix2 n q) :=
    Finset.sum_congr rfl fun q _ => by rw [hh q, hwh q]
  rw [preact_at, ex, eh, hb]
  rfl

/-- The input gate's block at `(p, j)`. -/
theorem inGate_at (v0 v2 : Vec Ideal S256x1024 .f32) (v4 v6 : Vec Ideal S1024x1024 .bf16) (v8 : Vec Ideal S1x1024 .f32) (n : Fin 4096)
    (hx : ∀ q : Fin 1024, v0 (ix2 p q) = X (ix2 r q)) (hh : ∀ q : Fin 1024, v2 (ix2 p q) = Hh (ix2 r q))
    (hwi : ∀ q : Fin 1024, v4 (ix2 q j) = Wi (ix2 n q)) (hwh : ∀ q : Fin 1024, v6 (ix2 q j) = Wh (ix2 n q))
    (hb : v8 (ix2 (0 : Fin 1) j) = Bb (ix1 n)) :
    k0_pay5 v0 v2 v4 v6 v8 (ix2 p j) = Ideal.logistic (gate X Hh Wi Wh Bb n r) := by
  unfold k0_pay5
  rw [logistic_at]
  simp only [shapeCast_self]
  rw [gate_of_reads X Hh Wi Wh Bb r p j _ _ _ _ _ n (fun q => (narrow_x v0 _).trans (hx q)) (fun q => (narrow_h v2 _).trans (hh q)) hwi hwh hb]

/-- The forget gate's block at `(p, j)`. -/
theorem forgetGate_at (v0 v2 : Vec Ideal S256x1024 .f32) (v17 v19 : Vec Ideal S1024x1024 .bf16) (v21 : Vec Ideal S1x1024 .f32) (n : Fin 4096)
    (hx : ∀ q : Fin 1024, v0 (ix2 p q) = X (ix2 r q)) (hh : ∀ q : Fin 1024, v2 (ix2 p q) = Hh (ix2 r q))
    (hwi : ∀ q : Fin 1024, v17 (ix2 q j) = Wi (ix2 n q)) (hwh : ∀ q : Fin 1024, v19 (ix2 q j) = Wh (ix2 n q))
    (hb : v21 (ix2 (0 : Fin 1) j) = Bb (ix1 n)) :
    k0_pay6 v0 v2 v17 v19 v21 (ix2 p j) = Ideal.logistic (gate X Hh Wi Wh Bb n r) := by
  unfold k0_pay6
  rw [logistic_at]
  simp only [shapeCast_self]
  rw [gate_of_reads X Hh Wi Wh Bb r p j _ _ _ _ _ n (fun q => (narrow_x v0 _).trans (hx q)) (fun q => (narrow_h v2 _).trans (hh q)) hwi hwh hb]

/-- THE VALUE STORED AS THE NEW CELL STATE at `(p, j)`: forget gate times old state plus input gate times the candidate,
    the candidate the hyperbolic tangent of the third gate's pre-activation. -/
theorem cellPay_at (v1 v3 : FVec Ideal S256x1024 .bf16) (v16 v29 : FVec Ideal S256x1024 .f32) (v31 v33 : FVec Ideal S1024x1024 .bf16)
    (v34 : Vec Ideal S1x1024 .f32) (v56 : Vec Ideal S256x1024 .f32)
    (hx : ∀ q : Fin 1024, v1 (ix2 p q) = X (ix2 r q)) (hh : ∀ q : Fin 1024, v3 (ix2 p q) = Hh (ix2 r q))
    (hwi : ∀ q : Fin 1024, v31 (ix2 q j) = Wi (ix2 (gcol 2048 (by decide) j) q))
    (hwh : ∀ q : Fin 1024, v33 (ix2 q j) = Wh (ix2 (gcol 2048 (by decide) j) q))
    (hb : v34 (ix2 (0 : Fin 1) j) = Bb (ix1 (gcol 2048 (by decide) j)))
    (hin : v16 (ix2 p j) = Ideal.logistic (gate X Hh Wi Wh Bb (gcol 0 (by decide) j) r))
    (hfg : v29 (ix2 p j) = Ideal.logistic (gate X Hh Wi Wh Bb (gcol 1024 (by decide) j) r))
    (hc : v56 (ix2 p j) = Cc (ix2 r j)) :
    k0_pay1 v1 v3 v16 v29 v31 v33 v34 v56 (ix2 p j) = cellAt X Hh Cc Wi Wh Bb r j := by
  unfold k0_pay1
  rw [addf_apply, mulf_apply, mulf_apply, tanh_at]
  simp only [shapeCast_self]
  rw [gate_of_reads X Hh Wi Wh Bb r p j _ _ _ _ _ _ hx hh hwi hwh hb, hin, hfg, hc]
  rfl

/-- THE VALUE STORED AS THE NEW HIDDEN STATE at `(p, j)`: the output gate, the logistic function of the fourth gate's
    pre-activation, times the hyperbolic tangent of the new cell state. -/
theorem hiddenPay_at (v1 v3 : FVec Ideal S256x1024 .bf16) (v16 v29 : FVec Ideal S256x1024 .f32) (v31 v33 : FVec Ideal S1024x1024 .bf16)
    (v34 : Vec Ideal S1x1024 .f32) (v43 v45 : Vec Ideal S1024x1024 .bf16) (v47 : Vec Ideal S1x1024 .f32) (v56 : Vec Ideal S256x1024 .f32)
    (hx : ∀ q : Fin 1024, v1 (ix2 p q) = X (ix2 r q)) (hh : ∀ q : Fin 1024, v3 (ix2 p q) = Hh (ix2 r q))
    (hwi : ∀ q : Fin 1024, v43 (ix2 q j) = Wi (ix2 (gcol 3072 (by decide) j) q))
    (hwh : ∀ q : Fin 1024, v45 (ix2 q j) = Wh (ix2 (gcol 3072 (by decide) j) q))
    (hb : v47 (ix2 (0 : Fin 1) j) = Bb (ix1 (gcol 3072 (by decide) j)))
    (hcell : k0_pay1 v1 v3 v16 v29 v31 v33 v34 v56 (ix2 p j) = cellAt X Hh Cc Wi Wh Bb r j) :
    k0_pay2 v1 v3 v16 v29 v31 v33 v34 v43 v45 v47 v56 (ix2 p j) = hiddenAt X Hh Cc Wi Wh Bb r j := by
  unfold k0_pay2
  rw [mulf_apply, logistic_at, tanh_at, hcell]
  simp only [shapeCast_self]
  rw [gate_of_reads X Hh Wi Wh Bb r p j _ _ _ _ _ _ hx hh hwi hwh hb]
  rfl

end Entry

/-! ## The cuts the body loads -/

theorem zeros2 : (![0, 0] : Fin 2 → Nat) = fun _ => 0 := funext fun a => by fin_cases a <;> rfl

/-- A whole 256 × 1024 block loaded through the rectangle at the origin is the block. -/
theorem ld_rows (x : Vec Ideal S256x1024 .f32) : View.ld x r0_0 = x := View.ld_unit_zero zeros2 _ x

/-- The gate cuts of a transposed weight matrix: entry `(q, j)` of the cut at column offset `o` is entry `(q, o + j)`. -/
theorem ld_w0 (x : Vec Ideal S1024x4096 .bf16) (q j : Fin 1024) : View.ld x r0_1 (ix2 q j) = x (ix2 q (gcol 0 (by decide) j)) :=
  congrArg x (funext fun a => Fin.ext (by
    match a with
    | ⟨0, _⟩ => show 0 + 1 * q.val = q.val; omega
    | ⟨1, _⟩ => show 0 + 1 * j.val = 0 + j.val; omega))
theorem ld_w1 (x : Vec Ideal S1024x4096 .bf16) (q j : Fin 1024) : View.ld x r0_3 (ix2 q j) = x (ix2 q (gcol 1024 (by decide) j)) :=
  congrArg x (funext fun a => Fin.ext (by
    match a with
    | ⟨0, _⟩ => show 0 + 1 * q.val = q.val; omega
    | ⟨1, _⟩ => show 1024 + 1 * j.val = 1024 + j.val; omega))
theorem ld_w2 (x : Vec Ideal S1024x4096 .bf16) (q j : Fin 1024) : View.ld x r0_5 (ix2 q j) = x (ix2 q (gcol 2048 (by decide) j)) :=
  congrArg x (funext fun a => Fin.ext (by
    match a with
    | ⟨0, _⟩ => show 0 + 1 * q.val = q.val; omega
    | ⟨1, _⟩ => show 2048 + 1 * j.val = 2048 + j.val; omega))
theorem ld_w3 (x : Vec Ideal S1024x4096 .bf16) (q j : Fin 1024) : View.ld x r0_7 (ix2 q j) = x (ix2 q (gcol 3072 (by decide) j)) :=
  congrArg x (funext fun a => Fin.ext (by
    match a with
    | ⟨0, _⟩ => show 0 + 1 * q.val = q.val; omega
    | ⟨1, _⟩ => show 3072 + 1 * j.val = 3072 + j.val; omega))

/-- The gate cuts of the bias row. -/
theorem ld_b0 (x : Vec Ideal S1x4096 .f32) (j : Fin 1024) : View.ld x r0_2 (ix2 (0 : Fin 1) j) = x (ix2 (0 : Fin 1) (gcol 0 (by decide) j)) :=
  congrArg x (funext fun a => Fin.ext (by
    match a with
    | ⟨0, _⟩ => rfl
    | ⟨1, _⟩ => show 0 + 1 * j.val = 0 + j.val; omega))
theorem ld_b1 (x : Vec Ideal S1x4096 .f32) (j : Fin 1024) : View.ld x r0_4 (ix2 (0 : Fin 1) j) = x (ix2 (0 : Fin 1) (gcol 1024 (by decide) j)) :=
  congrArg x (funext fun a => Fin.ext (by
    match a with
    | ⟨0, _⟩ => rfl
    | ⟨1, _⟩ => show 1024 + 1 * j.val = 1024 + j.val; omega))
theorem ld_b2 (x : Vec Ideal S1x4096 .f32) (j : Fin 1024) : View.ld x r0_6 (ix2 (0 : Fin 1) j) = x (ix2 (0 : Fin 1) (gcol 2048 (by decide) j)) :=
  congrArg x (funext fun a => Fin.ext (by
    match a with
    | ⟨0, _⟩ => rfl
    | ⟨1, _⟩ => show 2048 + 1 * j.val = 2048 + j.val; omega))
theorem ld_b3 (x : Vec Ideal S1x4096 .f32) (j : Fin 1024) : View.ld x r0_8 (ix2 (0 : Fin 1) j) = x (ix2 (0 : Fin 1) (gcol 3072 (by decide) j)) :=
  congrArg x (funext fun a => Fin.ext (by
    match a with
    | ⟨0, _⟩ => rfl
    | ⟨1, _⟩ => show 3072 + 1 * j.val = 3072 + j.val; omega))

/-! ## The two result blocks, read off the argument arrays -/

/-- How the six blocks the body holds at a grid point sit in the argument arrays: block row `p` is array row `R p` of
    the input and the two states; the weight blocks are the whole matrices transposed; the bias block is the bias as
    one row. -/
structure Reads (X Hh Cc : Rows) (Wi Wh : Wts) (Bb : Bias) (x0 x1 x2 : Vec Ideal S256x1024 .f32)
    (x3 x4 : Vec Ideal S1024x4096 .bf16) (x5 : Vec Ideal S1x4096 .f32) (R : Fin 256 → Fin 8192) : Prop where
  rows_x : ∀ (p : Fin 256) (q : Fin 1024), x0 (ix2 p q) = X (ix2 (R p) q)
  rows_h : ∀ (p : Fin 256) (q : Fin 1024), x1 (ix2 p q) = Hh (ix2 (R p) q)
  rows_c : ∀ (p : Fin 256) (j : Fin 1024), x2 (ix2 p j) = Cc (ix2 (R p) j)
  wi_t : ∀ (q : Fin 1024) (n : Fin 4096), x3 (ix2 q n) = Wi (ix2 n q)
  wh_t : ∀ (q : Fin 1024) (n : Fin 4096), x4 (ix2 q n) = Wh (ix2 n q)
  bias_row : ∀ n : Fin 4096, x5 (ix2 (0 : Fin 1) n) = Bb (ix1 n)

variable {X Hh Cc : Rows} {Wi Wh : Wts} {Bb : Bias} {x0 x1 x2 : Vec Ideal S256x1024 .f32}
  {x3 x4 : Vec Ideal S1024x4096 .bf16} {x5 : Vec Ideal S1x4096 .f32} {R : Fin 256 → Fin 8192}

/-- The stored cell-state value at `(p, j)`, before it is read as a block. -/
theorem cell_entry (hr : Reads X Hh Cc Wi Wh Bb x0 x1 x2 x3 x4 x5 R) (p : Fin 256) (j : Fin 1024) :
    k0_pay1 (k0_pay3 (View.ld x0 r0_0)) (k0_pay4 (View.ld x1 r0_0))
        (k0_pay5 (View.ld x0 r0_0) (View.ld x1 r0_0) (View.ld x3 r0_1) (View.ld x4 r0_1) (View.ld x5 r0_2))
        (k0_pay6 (View.ld x0 r0_0) (View.ld x1 r0_0) (View.ld x3 r0_3) (View.ld x4 r0_3) (View.ld x5 r0_4))
        (k0_pay7 (View.ld x3 r0_5)) (k0_pay8 (View.ld x4 r0_5)) (View.ld x5 r0_6) (View.ld x2 r0_0) (ix2 p j)
      = cellAt X Hh Cc Wi Wh Bb (R p) j := by
  have hx : ∀ q : Fin 1024, View.ld x0 r0_0 (ix2 p q) = X (ix2 (R p) q) := fun q => (congrFun (ld_rows x0) _).trans (hr.rows_x p q)
  have hh : ∀ q : Fin 1024, View.ld x1 r0_0 (ix2 p q) = Hh (ix2 (R p) q) := fun q => (congrFun (ld_rows x1) _).trans (hr.rows_h p q)
  exact cellPay_at X Hh Cc Wi Wh Bb (R p) p j _ _ _ _ _ _ _ _
    (fun q => (narrow_x _ _).trans (hx q)) (fun q => (narrow_h _ _).trans (hh q))
    (fun q => (congrFun (recast_wi _) _).trans ((ld_w2 x3 q j).trans (hr.wi_t q _)))
    (fun q => (congrFun (recast_wh _) _).trans ((ld_w2 x4 q j).trans (hr.wh_t q _)))
    ((ld_b2 x5 j).trans (hr.bias_row _))
    (inGate_at X Hh Wi Wh Bb (R p) p j _ _ _ _ _ _ hx hh
      (fun q => (ld_w0 x3 q j).trans (hr.wi_t q _)) (fun q => (ld_w0 x4 q j).trans (hr.wh_t q _)) ((ld_b0 x5 j).trans (hr.bias_row _)))
    (forgetGate_at X Hh Wi Wh Bb (R p) p j _ _ _ _ _ _ hx hh
      (fun q => (ld_w1 x3 q j).trans (hr.wi_t q _)) (fun q => (ld_w1 x4 q j).trans (hr.wh_t q _)) ((ld_b1 x5 j).trans (hr.bias_row _)))
    ((congrFun (ld_rows x2) _).trans (hr.rows_c p j))

/-- THE CELL-STATE BLOCK: what the body leaves in the second result's block, at `(p, j)`, is the new cell state at
    `(R p, j)`. -/
theorem cell_block (hr : Reads X Hh Cc Wi Wh Bb x0 x1 x2 x3 x4 x5 R) (p : Fin 256) (j : Fin 1024) :
    out0_7 x0 x1 x2 x3 x4 x5 (ix2 p j) = cellAt X Hh Cc Wi Wh Bb (R p) j := by
  unfold out0_7
  rw [View.canon_unit_zero zeros2]
  exact cell_entry hr p j

/-- THE HIDDEN-STATE BLOCK: what the body leaves in the first result's block, at `(p, j)`, is the new hidden state at
    `(R p, j)`. -/
theorem hidden_block (hr : Reads X Hh Cc Wi Wh Bb x0 x1 x2 x3 x4 x5 R) (p : Fin 256) (j : Fin 1024) :
    out0_6 x0 x1 x2 x3 x4 x5 (ix2 p j) = hiddenAt X Hh Cc Wi Wh Bb (R p) j := by
  unfold out0_6
  rw [View.canon_unit_zero zeros2]
  exact hiddenPay_at X Hh Cc Wi Wh Bb (R p) p j _ _ _ _ _ _ _ _ _ _ _
    (fun q => (narrow_x _ _).trans ((congrFun (ld_rows x0) _).trans (hr.rows_x p q)))
    (fun q => (narrow_h _ _).trans ((congrFun (ld_rows x1) _).trans (hr.rows_h p q)))
    (fun q => (ld_w3 x3 q j).trans (hr.wi_t q _)) (fun q => (ld_w3 x4 q j).trans (hr.wh_t q _))
    ((ld_b3 x5 j).trans (hr.bias_row _))
    (cell_entry hr p j)

end Cert.KernelIdeal.CellBlock

end
-- ==== Proof.KernelArray.lean ====
/-
  From blocks to arrays: after the kernel's run its two result arrays hold the new hidden state and the new cell state.

  The grid has 32 points. At point `t` the three row windows (input, hidden state, cell state) hold rows
  `256·t … 256·t + 255` of their arrays; the two weight windows hold the whole transposed weight matrices and the bias
  window the bias as one row — these three arrays are written by the host before the region: the weights transposed
  and narrowed (the narrowing is the identity on the extended reals), the bias re-shaped to one row. The two result
  windows write block `t` back to rows `256·t … 256·t + 255` of the result arrays. Block row `p` at point `t` is
  therefore array row `256·t + p`; by the block-level lemmas what point `t` writes back is block `t` of the cell
  function, and the 32 blocks tile the 8192 rows, row `r` lying in block `r / 256`.
-/
import proofs.«429848_j73272142069831_3_alg».proof.Proof.Gen.KernelIdeal.Value
import proofs.«429848_j73272142069831_3_alg».proof.Proof.KernelCell
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.CellArray

open Cert.KernelIdeal Cert.KernelIdeal.Gen Cert.KernelIdeal.Value Cert.KernelIdeal.CellBlock Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The six arguments as launched -/

abbrev argX (c : Dev nD) : Rows := m ((c : Thread nD τ).loc main_arg0)
abbrev argH (c : Dev nD) : Rows := m ((c : Thread nD τ).loc main_arg1)
abbrev argC (c : Dev nD) : Rows := m ((c : Thread nD τ).loc main_arg2)
abbrev argWi (c : Dev nD) : Wts := m ((c : Thread nD τ).loc main_arg3)
abbrev argWh (c : Dev nD) : Wts := m ((c : Thread nD τ).loc main_arg4)
abbrev argB (c : Dev nD) : Bias := m ((c : Thread nD τ).loc main_arg5)

/-! ## What the host leaves in the weight and bias windows' arrays -/

/-- The first weight window's array: the input weights transposed, then narrowed. -/
theorem V_wi (c : Dev nD) : V m c main_v1
    = (truncf (F := Ideal) .bf16 (transpose S1024x4096 [1, 0] (m ((c : Thread nD τ).loc main_arg3)) transposes_S4096x1024_S1024x4096_1_0) bitsLt_bf16_f32 : FVec Ideal S1024x4096 .bf16) := by
  dsimp only [Gen.V, Gen.hostOps0]; after_results; all_goals rfl

/-- The second weight window's array: the hidden weights transposed, then narrowed. -/
theorem V_wh (c : Dev nD) : V m c main_v3
    = (truncf (F := Ideal) .bf16 (transpose S1024x4096 [1, 0] (m ((c : Thread nD τ).loc main_arg4)) transposes_S4096x1024_S1024x4096_1_0) bitsLt_bf16_f32 : FVec Ideal S1024x4096 .bf16) := by
  dsimp only [Gen.V, Gen.hostOps0]; after_results; all_goals rfl

/-- The bias window's array: the bias re-shaped to one row. -/
theorem V_b (c : Dev nD) : V m c main_v4
    = (shapeCast S1x4096 (m ((c : Thread nD τ).loc main_arg5)) shapeCasts_S4096_S1x4096 : FVec Ideal S1x4096 .f32) := by
  dsimp only [Gen.V, Gen.hostOps0]; after_results; all_goals rfl

/-- Entry `(q, n)` of the first weight window's array is the input weight at `(n, q)`. -/
theorem V_wi_at (c : Dev nD) (q : Fin 1024) (n : Fin 4096) :
    (V m c main_v1 : S1024x4096.Idx → EReal) (ix2 q n) = argWi m c (ix2 n q) := by
  rw [V_wi]
  exact transpose_ix2_apply _ _ q n
theorem V_wh_at (c : Dev nD) (q : Fin 1024) (n : Fin 4096) :
    (V m c main_v3 : S1024x4096.Idx → EReal) (ix2 q n) = argWh m c (ix2 n q) := by
  rw [V_wh]
  exact transpose_ix2_apply _ _ q n
/-- Entry `(0, n)` of the bias window's array is bias entry `n`. -/
theorem V_b_at (c : Dev nD) (n : Fin 4096) :
    (V m c main_v4 : S1x4096.Idx → EReal) (ix2 (0 : Fin 1) n) = argB m c (ix1 n) := by
  rw [V_b]
  exact shapeCast_a_1a_apply _ _ 0 n

/-! ## The windows' index maps over the grid -/

/-- The row windows and the result windows move one block of rows per point; the weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt32 (t : Fin cfg0.N) : t.val < 32 := Nat.lt_of_lt_of_eq t.isLt N_0

/-- The array row of block row `p` at point `t`. -/
abbrev rowOf (t : Fin cfg0.N) (p : Fin 256) : Fin 8192 := ⟨256 * t.val + p.val, by have := lt32 t; omega⟩

/-! ## The blocks at a point, read off the arrays -/

/-- The input window's block at point `t`: block row `p` is array row `256·t + p`. -/
theorem xblk_at (c : Dev nD) (t : Fin cfg0.N) (p : Fin 256) (q : Fin 1024) :
    (iblk m c 0 t : Vec Ideal S256x1024 .f32) (ix2 p q) = argX m c (ix2 (rowOf t p) q) := by
  obtain ⟨e0, e1, -⟩ := idx_facts t
  unfold iblk
  rw [View.read_apply]
  show V m c main_arg0 _ = argX m c _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * q.val = q.val; rw [e1]; omega

/-- The hidden-state window's block at point `t`. -/
theorem hblk_at (c : Dev nD) (t : Fin cfg0.N) (p : Fin 256) (q : Fin 1024) :
    (iblk m c 1 t : Vec Ideal S256x1024 .f32) (ix2 p q) = argH m c (ix2 (rowOf t p) q) := by
  obtain ⟨-, -, e0, e1, -⟩ := idx_facts t
  unfold iblk
  rw [View.read_apply]
  show V m c main_arg1 _ = argH m c _
  rw [V_main_arg1]
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 1024 + 1 * q.val = q.val; rw [e1]; omega

/-- The cell-state window's block at point `t`. -/
theorem cblk_at (c : Dev nD) (t : Fin cfg0.N) (p : Fin 256) (q : Fin 1024) :
    (iblk m c 2 t : Vec Ideal S256x1024 .f32) (ix2 p q) = argC m c (ix2 (rowOf t p) q) := by
  obtain ⟨-, -, -, -, e0, e1, -⟩ := idx_facts t
  unfold iblk
  rw [View.read_apply]
  show V m c main_arg2 _ = argC m c _
  rw [V_main_arg2]
  congr 1
  funext a
  apply Fin.ext
  match a with
  | ⟨0, _⟩ => show win0_2.index t (0 : Fin 2) * 256 + 1 * p.val = 256 * t.val + p.val; rw [e0]; omega
  | ⟨1, _⟩ => show win0_2.index t (1 : Fin 2) * 1024 + 1 * q.val = q.val; rw [e1]; omega

/-- The first weight window's block at any point is the whole transposed input-weight matrix. -/
theorem wiblk_at (c : Dev nD) (t : Fin cfg0.N) (q : Fin 1024) (n : Fin 4096) :
    (iblk m c 3 t : Vec Ideal S1024x4096 .bf16) (ix2 q n) = argWi m c (ix2 n q) := by
  obtain ⟨-, -, -, -, -, -, e0, e1, -⟩ := idx_facts t
  unfold iblk
  rw [View.read_apply]
  show (V m c main_v1 : S1024x4096.Idx → EReal) _ = argWi m c _
  refine (congrArg (V m c main_v1 : S1024x4096.Idx → EReal) (funext fun a => Fin.ext ?_)).trans (V_wi_at m c q n)
  match a with
  | ⟨0, _⟩ => show win0_3.index t (0 : Fin 2) * 1024 + 1 * q.val = q.val; rw [e0]; omega
  | ⟨1, _⟩ => show win0_3.index t (1 : Fin 2) * 4096 + 1 * n.val = n.val; rw [e1]; omega

/-- The second weight window's block at any point is the whole transposed hidden-weight matrix. -/
theorem whblk_at (c : Dev nD) (t : Fin cfg0.N) (q : Fin 1024) (n : Fin 4096) :
    (iblk m c 4 t : Vec Ideal S1024x4096 .bf16) (ix2 q n) = argWh m c (ix2 n q) := by
  obtain ⟨-, -, -, -, -, -, -, -, e0, e1, -⟩ := idx_facts t
  unfold iblk
  rw [View.read_apply]
  show (V m c main_v3 : S1024x4096.Idx → EReal) _ = argWh m c _
  refine (congrArg (V m c main_v3 : S1024x4096.Idx → EReal) (funext fun a => Fin.ext ?_)).trans (V_wh_at m c q n)
  match a with
  | ⟨0, _⟩ => show win0_4.index t (0 : Fin 2) * 1024 + 1 * q.val = q.val; rw [e0]; omega
  | ⟨1, _⟩ => show win0_4.index t (1 : Fin 2) * 4096 + 1 * n.val = n.val; rw [e1]; omega

/-- The bias window's block at any point is the bias as one row. -/
theorem bblk_at (c : Dev nD) (t : Fin cfg0.N) (n : Fin 4096) :
    (iblk m c 5 t : Vec Ideal S1x4096 .f32) (ix2 (0 : Fin 1) n) = argB m c (ix1 n) := by
  obtain ⟨-, -, -, -, -, -, -, -, -, -, e0, e1, -⟩ := idx_facts t
  unfold iblk
  rw [View.read_apply]
  show (V m c main_v4 : S1x4096.Idx → EReal) _ = argB m c _
  refine (congrArg (V m c main_v4 : S1x4096.Idx → EReal) (funext fun a => Fin.ext ?_)).trans (V_b_at m c n)
  match a with
  | ⟨0, _⟩ => show win0_5.index t (0 : Fin 2) * 1 + 1 * 0 = 0; rw [e0]
  | ⟨1, _⟩ => show win0_5.index t (1 : Fin 2) * 4096 + 1 * n.val = n.val; rw [e1]; omega

/-- The six blocks at point `t` sit in the argument arrays as the block-level lemmas ask. -/
theorem reads_at (c : Dev nD) (t : Fin cfg0.N) :
    Reads (argX m c) (argH m c) (argC m c) (argWi m c) (argWh m c) (argB m c)
      (iblk m c 0 t) (iblk m c 1 t) (iblk m c 2 t) (iblk m c 3 t) (iblk m c 4 t) (iblk m c 5 t) (rowOf t) :=
  ⟨xblk_at m c t, hblk_at m c t, cblk_at m c t, wiblk_at m c t, whblk_at m c t, bblk_at m c t⟩

/-! ## What each point writes back -/

/-- Point `t` writes block `t` of the new cell state back to the second result array. -/
theorem flushed_cell (c : Dev nD) (t : Fin cfg0.N) :
    (dats m 0 c).flushed 7 t = ((cfg0.win 7).blk t).view.read (Elt Ideal)
      (cell (argX m c) (argH m c) (argC m c) (argWi m c) (argWh m c) (argB m c)) := by
  rw [Value.flushed7]
  funext y
  obtain ⟨p, j, rfl⟩ : ∃ (p : Fin 256) (j : Fin 1024), y = ix2 p j := ⟨y 0, y 1, eq_ix2 y⟩
  obtain ⟨-, -, -, -, -, -, -, -, -, -, -, -, -, -, e0, e1⟩ := idx_facts t
  rw [View.read_apply]
  show out0_7 (iblk m c 0 t) (iblk m c 1 t) (iblk m c 2 t) (iblk m c 3 t) (iblk m c 4 t) (iblk m c 5 t) (ix2 p j)
    = cell (argX m c) (argH m c) (argC m c) (argWi m c) (argWh m c) (argB m c) _
  refine (cell_block (reads_at m c t) p j).trans ?_
  show cellAt _ _ _ _ _ _ (rowOf t p) j = cellAt _ _ _ _ _ _ _ _
  congr 1 <;> apply Fin.ext
  · show 256 * t.val + p.val = win0_7.index t (0 : Fin 2) * 256 + 1 * p.val; rw [e0]; omega
  · show j.val = win0_7.index t (1 : Fin 2) * 1024 + 1 * j.val; rw [e1]; omega

/-- Point `t` writes block `t` of the new hidden state back to the first result array. -/
theorem flushed_hidden (c : Dev nD) (t : Fin cfg0.N) :
    (dats m 0 c).flushed 6 t = ((cfg0.win 6).blk t).view.read (Elt Ideal)
      (hidden (argX m c) (argH m c) (argC m c) (argWi m c) (argWh m c) (argB m c)) := by
  rw [Value.flushed6]
  funext y
  obtain ⟨p, j, rfl⟩ : ∃ (p : Fin 256) (j : Fin 1024), y = ix2 p j := ⟨y 0, y 1, eq_ix2 y⟩
  obtain ⟨-, -, -, -, -, -, -, -, -, -, -, -, e0, e1, -⟩ := idx_facts t
  rw [View.read_apply]
  show out0_6 (iblk m c 0 t) (iblk m c 1 t) (iblk m c 2 t) (iblk m c 3 t) (iblk m c 4 t) (iblk m c 5 t) (ix2 p j)
    = hidden (argX m c) (argH m c) (argC m c) (argWi m c) (argWh m c) (argB m c) _
  refine (hidden_block (reads_at m c t) p j).trans ?_
  show hiddenAt _ _ _ _ _ _ (rowOf t p) j = hiddenAt _ _ _ _ _ _ _ _
  congr 1 <;> apply Fin.ext
  · show 256 * t.val + p.val = win0_6.index t (0 : Fin 2) * 256 + 1 * p.val; rw [e0]; omega
  · show j.val = win0_6.index t (1 : Fin 2) * 1024 + 1 * j.val; rw [e1]; omega

/-! ## The blocks tile the result arrays -/

/-- An index of the second result array is in point `t`'s block iff each coordinate is in the block's range. -/
theorem mem_blk_cell (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v5_1).slice (win0_7.rect t)).set ↔ _
  rw [View.set_slice_whole, Rect.mem_set_unit]
  exact Iff.rfl

theorem mem_blk_hidden (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_0).slice (win0_6.rect t)).set ↔ _
  rw [View.set_slice_whole, Rect.mem_set_unit]
  exact Iff.rfl

/-- Row `r` lies in the block of point `r / 256`. -/
theorem cover_cell (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 256 :=
    ⟨⟨(i 0).val / 256, Nat.lt_of_lt_of_eq (show (i 0).val / 256 < 32 by omega) N_0.symm⟩, rfl⟩
  obtain ⟨-, -, -, -, -, -, -, -, -, -, -, -, -, -, e0, e1⟩ := idx_facts t
  refine ⟨t, flush0_7 t, ?_⟩
  rw [mem_blk_cell]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1024 ≤ (i 1).val ∧ (i 1).val < win0_7.index t (1 : Fin 2) * 1024 + 1024; rw [e1]; omega

theorem cover_hidden (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 256 :=
    ⟨⟨(i 0).val / 256, Nat.lt_of_lt_of_eq (show (i 0).val / 256 < 32 by omega) N_0.symm⟩, rfl⟩
  obtain ⟨-, -, -, -, -, -, -, -, -, -, -, -, e0, e1, -⟩ := idx_facts t
  refine ⟨t, flush0_6 t, ?_⟩
  rw [mem_blk_hidden]
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 1024 ≤ (i 1).val ∧ (i 1).val < win0_6.index t (1 : Fin 2) * 1024 + 1024; rw [e1]; omega

/-! ## The result arrays after the run -/

/-- The second result array ends holding the new cell state. -/
theorem final_cell (c : Dev nD) :
    (dats m 0 c).arrAt 7 cfg0.N = cell (argX m c) (argH m c) (argC m c) (argWi m c) (argWh m c) (argB m c) :=
  (dats m 0 c).arrAt_eq_of_cover 7 _ (fun t _ => flushed_cell m c t) cover_cell

/-- The first result array ends holding the new hidden state. -/
theorem final_hidden (c : Dev nD) :
    (dats m 0 c).arrAt 6 cfg0.N = hidden (argX m c) (argH m c) (argC m c) (argWi m c) (argWh m c) (argB m c) :=
  (dats m 0 c).arrAt_eq_of_cover 6 _ (fun t _ => flushed_hidden m c t) cover_hidden

/-- THE KERNEL'S RUN, READ: every weakly fair execution ends with the first result array at the new hidden state and the
    second at the new cell state of the arguments as launched, the arguments unchanged. -/
theorem run : θ_run defs (onTc (τ := τ) (main (F := Ideal))) ⟨m, fun _ => 0, ρ⟩ fun r => ∀ c : Dev nD,
      r.2.mem ((c : Thread nD τ).loc main_v5_0) = hidden (argX m c) (argH m c) (argC m c) (argWi m c) (argWh m c) (argB m c)
      ∧ r.2.mem ((c : Thread nD τ).loc main_v5_1) = cell (argX m c) (argH m c) (argC m c) (argWi m c) (argWh m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cell m c), (h c).2.2⟩)
    (Value.run_blocks m ρ)

end Cert.KernelIdeal.CellArray

end
-- ==== Proof.lean ====
/-
  An LSTM cell step as a tiled kernel against its plain reference, over the extended reals.

  Both programs compute, from the input `X`, the states `Hh`, `Cc`, the stacked weights `Wi`, `Wh` and the stacked
  bias `Bb`, the stacked pre-activations

      gate n r = (Σ_q X[r,q] · Wi[n,q]  +  Σ_q Hh[r,q] · Wh[n,q])  +  Bb[n]

  and from them, with σ the logistic function,

      cell[r,j]   = σ(gate (1024 + j) r) · Cc[r,j]  +  σ(gate j r) · tanh(gate (2048 + j) r),
      hidden[r,j] = σ(gate (3072 + j) r) · tanh(cell[r,j])

  (Proof/LstmCell.lean). The reference does it on whole arrays: two matrix products against the transposed weights, the
  bias broadcast, four cuts of 1024 columns, the logistic function spelt `1 / (1 + exp (-x))` (Proof/RefCell.lean). The
  kernel walks 32 blocks of 256 rows; per block and per gate it multiplies the block with the gate's 1024 columns of the
  transposed weights on the matrix unit into a zero accumulator, after narrowing the rows to half precision, and applies
  the logistic function as one operation (Proof/KernelCell.lean for a block, Proof/KernelArray.lean for the arrays).
  On the extended reals the narrowing is the identity, a product into the zero accumulator is the plain sum, and the
  logistic operation is the spelt quotient: the two programs perform the same sums, products and function
  applications in the same grouping, so the two results agree entry by entry by the definitions alone, with no
  appeal to the finiteness of the inputs. No operation of the kernel is rewritten for its reading on the extended reals:
  its idealization is the printed text itself, and the conjunct relating the two is the true proposition.
-/
import proofs.«429848_j73272142069831_3_alg».proof.Defs
import proofs.«429848_j73272142069831_3_alg».proof.Proof.Gen.Kernel
import proofs.«429848_j73272142069831_3_alg».proof.Proof.Gen.Kernel.Skeleton
import proofs.«429848_j73272142069831_3_alg».proof.Proof.Gen.Kernel.Launch
import proofs.«429848_j73272142069831_3_alg».proof.Proof.Gen.Kernel.Points
import proofs.«429848_j73272142069831_3_alg».proof.Proof.Gen.Kernel.Frame
import proofs.«429848_j73272142069831_3_alg».proof.Proof.Gen.KernelIdeal
import proofs.«429848_j73272142069831_3_alg».proof.Proof.Gen.KernelIdeal.Skeleton
import proofs.«429848_j73272142069831_3_alg».proof.Proof.Gen.KernelIdeal.Launch
import proofs.«429848_j73272142069831_3_alg».proof.Proof.Gen.KernelIdeal.Points
import proofs.«429848_j73272142069831_3_alg».proof.Proof.Gen.KernelIdeal.Frame
import proofs.«429848_j73272142069831_3_alg».proof.Proof.Gen.ReferenceIdeal
import proofs.«429848_j73272142069831_3_alg».proof.Proof.Gen.Pre_finite_inputs
import proofs.«429848_j73272142069831_3_alg».proof.Proof.Gen.KernelIdeal.Value
import proofs.«429848_j73272142069831_3_alg».proof.Proof.Gen.ReferenceIdeal.Run
import proofs.«429848_j73272142069831_3_alg».proof.Proof.Gen.ReferenceIdeal.Read
import proofs.«429848_j73272142069831_3_alg».proof.Proof.LstmCell
import proofs.«429848_j73272142069831_3_alg».proof.Proof.RefCell
import proofs.«429848_j73272142069831_3_alg».proof.Proof.KernelCell
import proofs.«429848_j73272142069831_3_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the new hidden state in their first result and
    the new cell state in their second: the kernel by its blocks tiling the arrays, the reference by reading its
    operations one at a time. -/
theorem algebraic : Cert.algebraic_KernelIdeal_ReferenceIdeal := by
  intro m ρ m' ρ' _ hagree
  refine ⟨fun c => LstmCell.hidden (KernelIdeal.CellArray.argX m c) (KernelIdeal.CellArray.argH m c) (KernelIdeal.CellArray.argC m c)
      (KernelIdeal.CellArray.argWi m c) (KernelIdeal.CellArray.argWh m c) (KernelIdeal.CellArray.argB m c),
    fun c => LstmCell.cell (KernelIdeal.CellArray.argX m c) (KernelIdeal.CellArray.argH m c) (KernelIdeal.CellArray.argC m c)
      (KernelIdeal.CellArray.argWi m c) (KernelIdeal.CellArray.argWh m c) (KernelIdeal.CellArray.argB m c),
    Cert.KernelIdeal.CellArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [ReferenceIdeal.Read.val_main_v35_eq, ReferenceIdeal.RefCell.hidden_eq,
      (hagree c).1, (hagree c).2.1, (hagree c).2.2.1, (hagree c).2.2.2.1, (hagree c).2.2.2.2.1, (hagree c).2.2.2.2.2]
  · rw [ReferenceIdeal.Read.val_main_v33_eq, ReferenceIdeal.RefCell.cell_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
